-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S512x512x512 : Shape := ⟨3, ![512, 512, 512]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S512x512x512 : S_.BroadcastsInDim S512x512x512 (![] : Fin 0 → Fin S512x512x512.rank)
  reducesTo_S512x512x512_S_d0_1_2 : S512x512x512.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x1024x512 .f32) (main_arg1 : FVec F S8x1024x512 .f32) (main_arg2 : FVec F S512x512x512 .f32) (main_arg3 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x1024x512 .f32 := Host.absf main_arg1
  let main_cst_0 : FVec F S_ .f32 := constant S_ .f32 0x7F800000#32
  let main_v5 : FVec F S8x1024x512 .f32 := broadcastInDim S8x1024x512 ![] bcast_S_S8x1024x512 main_cst_0
  let main_v6 : IVec S8x1024x512 1 := cmpf .olt main_v4 main_v5
  let main_c_1 : IVec S_ 1 := constantI S_ 1 1#1
  let main_v7 : IVec S_ 1 := (fun x v => Host.reduce IntOp.andi x v reducesTo_S8x1024x512_S_d0_1_2 h_S_) main_v6 main_c_1
  let main_v8 : IVec S_ 1 := andi main_v3 main_v7
  let main_v9 : FVec F S512x512x512 .f32 := Host.absf main_arg2
  let main_cst_2 : FVec F S_ .f32 := constant S_ .f32 0x7F800000#32
  let main_v10 : FVec F S512x512x512 .f32 := broadcastInDim S512x512x512 ![] bcast_S_S512x512x512 main_cst_2
  let main_v11 : IVec S512x512x512 1 := cmpf .olt main_v9 main_v10
  let main_c_3 : IVec S_ 1 := constantI S_ 1 1#1
  let main_v12 : IVec S_ 1 := (fun x v => Host.reduce IntOp.andi x v reducesTo_S512x512x512_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x1024x512 : Shape := ⟨3, ![8, 1024, 512]⟩
abbrev S512x512x512 : Shape := ⟨3, ![512, 512, 512]⟩
abbrev S512 : Shape := ⟨1, ![512]⟩
abbrev S_ : Shape := ⟨0, ![]⟩
abbrev S8x512 : Shape := ⟨2, ![8, 512]⟩
abbrev S262144x512 : Shape := ⟨2, ![262144, 512]⟩
abbrev S8x262144 : Shape := ⟨2, ![8, 262144]⟩
abbrev S4096x512 : Shape := ⟨2, ![4096, 512]⟩
abbrev S8x4096 : Shape := ⟨2, ![8, 4096]⟩
abbrev S8x512x512 : Shape := ⟨3, ![8, 512, 512]⟩
abbrev S1x512 : Shape := ⟨2, ![1, 512]⟩
abbrev S1x1024x512 : Shape := ⟨3, ![1, 1024, 512]⟩
abbrev S1x512x512 : Shape := ⟨3, ![1, 512, 512]⟩
abbrev S1024x512 : Shape := ⟨2, ![1024, 512]⟩
abbrev S512x512 : Shape := ⟨2, ![512, 512]⟩

abbrev nBuf : Space → Nat
  | .hbm => 14
  | .vmem => 12
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S512x512x512, .f32⟩
  | .hbm, ⟨3, _⟩ => ⟨S512, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S262144x512, .f32⟩
  | .hbm, ⟨10, _⟩ => ⟨S8x262144, .bf16⟩
  | .hbm, ⟨11, _⟩ => ⟨S8x512x512, .bf16⟩
  | .hbm, ⟨12, _⟩ => ⟨S1x512, .f32⟩
  | .hbm, ⟨13, _⟩ => ⟨S8x1024x512, .f32⟩
  | .local _ .vmem, ⟨0, _⟩ => ⟨S4096x512, .f32⟩
  | .local _ .vmem, ⟨1, _⟩ => ⟨S4096x512, .f32⟩
  | .local _ .vmem, ⟨2, _⟩ => ⟨S8x512, .f32⟩
  | .local _ .vmem, ⟨3, _⟩ => ⟨S8x4096, .bf16⟩
  | .local _ .vmem, ⟨4, _⟩ => ⟨S8x4096, .bf16⟩
  | .local _ .vmem, ⟨5, _⟩ => ⟨S1x1024x512, .f32⟩
  | .local _ .vmem, ⟨6, _⟩ => ⟨S1x1024x512, .f32⟩
  | .local _ .vmem, ⟨7, _⟩ => ⟨S1x512x512, .bf16⟩
  | .local _ .vmem, ⟨8, _⟩ => ⟨S1x512x512, .bf16⟩
  | .local _ .vmem, ⟨9, _⟩ => ⟨S1x512, .f32⟩
  | .local _ .vmem, ⟨10, _⟩ => ⟨S1x1024x512, .f32⟩
  | .local _ .vmem, ⟨11, _⟩ => ⟨S1x1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S8x1024x512_S8x512_d1 : S8x1024x512.ReducesTo [1] S8x512
  h_S_ : 0 < S_.numel
  bcast_S_S8x512 : S_.BroadcastsInDim S8x512 (![] : Fin 0 → Fin S8x512.rank)
  shapeCasts_S512x512x512_S262144x512 : S512x512x512.ShapeCasts S262144x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x4096_S8x4096_0_0 : ∀ a, (![0, 0] : Fin 2 → Nat) a + S8x4096.size a ≤ S8x4096.size a
  h_S8x4096 : 0 < S8x4096.numel
  packedbf16_S8x4096_S8x4096_0_0 : (Rect.unit (s := S8x4096) ![0, 0] S8x4096.size inb_S8x4096_S8x4096_0_0).PackedRows (EltTy.packing .bf16)
  shapeCasts_S8x262144_S8x512x512 : S8x262144.ShapeCasts S8x512x512
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  dot_S8x512_S4096x512_S8x4096_1_1_0_0_n_n_wf : DotDims.WF S8x512 S4096x512 S8x4096 [1] [1] [0] [0] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x262144.size a
  hwx0_2 : ∀ i : grid0.Coords, EltTy.bits .bf16 = 32 ∨ (Rect.block (s := S8x262144) S8x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x512.size a
  hwx1_0 : ∀ i : grid1.Coords, EltTy.bits .f32 = 32 ∨ (Rect.block (s := S8x1024x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S8x512x512.size a
  hwx1_1 : ∀ i : grid1.Coords, EltTy.bits .bf16 = 32 ∨ (Rect.block (s := S8x512x512) S1x512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S8x1024x512.size a
  hwx1_3 : ∀ i : grid1.Coords, EltTy.bits .f32 = 32 ∨ (Rect.block (s := S8x1024x512) S1x1024x512.size (cc1_transform_3 i) (hinb1_3 i)).WholeWords (EltTy.packing .f32)

variable [Facts₀]

def dot_S8x512_S4096x512_S8x4096_1_1_0_0_n_n : DotDims S8x512 S4096x512 S8x4096 where
  lhsContracting := [1]
  rhsContracting := [1]
  lhsNonContracting := [0]
  rhsNonContracting := [0]
  lhsBatch := []
  rhsBatch := []
  wf := dot_S8x512_S4096x512_S8x4096_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v3) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x1024x512 : Shape := ⟨3, ![8, 1024, 512]⟩
abbrev S512x512x512 : Shape := ⟨3, ![512, 512, 512]⟩
abbrev S512 : Shape := ⟨1, ![512]⟩
abbrev S_ : Shape := ⟨0, ![]⟩
abbrev S8x512 : Shape := ⟨2, ![8, 512]⟩
abbrev S8x512x512 : Shape := ⟨3, ![8, 512, 512]⟩
abbrev S1x1x512 : Shape := ⟨3, ![1, 1, 512]⟩

abbrev nBuf : Space → Nat
  | .hbm => 14
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S512x512x512, .f32⟩
  | .hbm, ⟨3, _⟩ => ⟨S512, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S8x512x512, .f32⟩
  | .hbm, ⟨10, _⟩ => ⟨S8x1024x512, .f32⟩
  | .hbm, ⟨11, _⟩ => ⟨S1x1x512, .f32⟩
  | .hbm, ⟨12, _⟩ => ⟨S8x1024x512, .f32⟩
  | .hbm, ⟨13, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  reducesTo_S8x1024x512_S8x512_d1 : S8x1024x512.ReducesTo [1] S8x512
  h_S_ : 0 < S_.numel
  bcast_S_S8x512 : S_.BroadcastsInDim S8x512 (![] : Fin 0 → Fin S8x512.rank)
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  dot_S8x512_S512x512x512_S8x512x512_1_2_0_01_n_n_wf : DotDims.WF S8x512 S512x512x512 S8x512x512 [1] [2] [0] [0, 1] [] []
  dot_S8x1024x512_S8x512x512_S8x1024x512_2_2_1_1_0_0_wf : DotDims.WF S8x1024x512 S8x512x512 S8x1024x512 [2] [2] [1] [1] [0] [0]

variable [Facts₀]

def dot_S8x512_S512x512x512_S8x512x512_1_2_0_01_n_n : DotDims S8x512 S512x512x512 S8x512x512 where
  lhsContracting := [1]
  rhsContracting := [2]
  lhsNonContracting := [0]
  rhsNonContracting := [0, 1]
  lhsBatch := []
  rhsBatch := []
  wf := dot_S8x512_S512x512x512_S8x512x512_1_2_0_01_n_n_wf
def dot_S8x1024x512_S8x512x512_S8x1024x512_2_2_1_1_0_0 : DotDims S8x1024x512 S8x512x512 S8x1024x512 where
  lhsContracting := [2]
  rhsContracting := [2]
  lhsNonContracting := [1]
  rhsNonContracting := [1]
  lhsBatch := [0]
  rhsBatch := [0]
  wf := dot_S8x1024x512_S8x512x512_S8x1024x512_2_2_1_1_0_0_wf

class Facts : Prop extends Facts₀ where

variable [Facts]
-- ==== Proof.Region0.lean ====
/-
  Region 0 (the first kernel) at the ideal values: what the flattened intermediate array holds when the region ends.

  The grid has 64 points; point `t` loads rows `4096·t … 4096·t + 4095` of the flattened weight (all 512 columns) and the
  whole [8, 512] mean, and stores the [8, 4096] block of columns `4096·t …` of the result:
  entry (b, 4096·t + q) is Σ_j xm[b, j] · w[4096·t + q, j]. The 64 column blocks tile the [8, 262144] array.
-/
import proofs.«118009_j82446192214447_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem ValueIdx

/-- Entry (b, r) of the flattened intermediate: row `r` of the flattened weight against row `b` of the mean. -/
def tAt (w : S262144x512.Idx → EReal) (xm : S8x512.Idx → EReal) (b : Fin 8) (r : Fin 262144) : EReal :=
  ∑ j : Fin 512, xm (ix2 b j) * w (ix2 r j)

/-- The flattened intermediate as one array. -/
def tflat (w : S262144x512.Idx → EReal) (xm : S8x512.Idx → EReal) : S8x262144.Idx → EReal :=
  fun y => tAt w xm (y 0) (y 1)

abbrev D0 := dot_S8x512_S4096x512_S8x4096_1_1_0_0_n_n

theorem lhs0_0 (i : S8x4096.Idx) (q : D0.contr.Idx) : (D0.lhsIdx i q 0).val = (i 0).val := by
  unfold DotDims.lhsIdx
  rw [dif_neg (show ¬(0 : Fin S8x512.rank) ∈ dot_S8x512_S4096x512_S8x4096_1_1_0_0_n_n.lhsBatch by decide), dif_pos (show (0 : Fin S8x512.rank) ∈ dot_S8x512_S4096x512_S8x4096_1_1_0_0_n_n.lhsNonContracting by decide)]
  rfl
theorem lhs0_1 (i : S8x4096.Idx) (q : D0.contr.Idx) : (D0.lhsIdx i q 1).val = (q ⟨0, by decide⟩).val :=
  dot_S8x512_S4096x512_S8x4096_1_1_0_0_n_n.lhsIdx_val_of_single rfl i q
theorem rhs0_0 (i : S8x4096.Idx) (q : D0.contr.Idx) : (D0.rhsIdx i q 0).val = (i 1).val := by
  unfold DotDims.rhsIdx
  rw [dif_neg (show ¬(0 : Fin S4096x512.rank) ∈ dot_S8x512_S4096x512_S8x4096_1_1_0_0_n_n.rhsBatch by decide), dif_pos (show (0 : Fin S4096x512.rank) ∈ dot_S8x512_S4096x512_S8x4096_1_1_0_0_n_n.rhsNonContracting by decide)]
  rfl
theorem rhs0_1 (i : S8x4096.Idx) (q : D0.contr.Idx) : (D0.rhsIdx i q 1).val = (q ⟨0, by decide⟩).val :=
  dot_S8x512_S4096x512_S8x4096_1_1_0_0_n_n.rhsIdx_val_of_single rfl i q

/-- The body's stored value at (p, q): the product of the mean's row `p` with the weight block's row `q`. -/
theorem pay0_apply (x0 : Vec Ideal S4096x512 .f32) (x1 : Vec Ideal S8x512 .f32) (p : Fin 8) (q : Fin 4096) :
    k0_pay1 x0 x1 (ix2 p q) = ∑ j : Fin 512, x1 (ix2 p j) * x0 (ix2 q j) := by
  unfold k0_pay1
  rw [shapeCast_self, shapeCast_self]
  show FloatOps.matmul D0 none (truncf (F := Ideal) .bf16 (x1 : FVec Ideal S8x512 .f32) bitsLt_bf16_f32)
    (truncf (F := Ideal) .bf16 (x0 : FVec Ideal S4096x512 .f32) bitsLt_bf16_f32)
    (constant (F := Ideal) S8x4096 .f32 0x00000000#32) (ix2 p q) = _
  rw [Ideal.matmul_constant_zero_apply, ← Equiv.sum_comp (contrEquiv1 D0 512 rfl rfl).symm]
  refine Finset.sum_congr rfl fun k _ => ?_
  have hk := contrEquiv1_symm_val D0 512 rfl rfl k
  have el : D0.lhsIdx (ix2 p q) ((contrEquiv1 D0 512 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 512 rfl rfl).symm k) = ix2 q k := funext fun a => Fin.ext (by
    match a with
    | ⟨0, _⟩ => exact rhs0_0 _ _
    | ⟨1, _⟩ => exact (rhs0_1 _ _).trans hk)
  rw [el, er]
  rfl

/-- The same at any index of the block, with the coordinates read off the index. -/
theorem pay0_at (x0 : Vec Ideal S4096x512 .f32) (x1 : Vec Ideal S8x512 .f32) (j : S8x4096.Idx) :
    k0_pay1 x0 x1 j = ∑ k : Fin 512, x1 (ix2 (n0 := 8) ⟨(j 0).val, (j 0).isLt⟩ k) * x0 (ix2 (n0 := 4096) ⟨(j 1).val, (j 1).isLt⟩ k) := by
  obtain ⟨p, q, rfl⟩ : ∃ (p : Fin 8) (q : Fin 4096), j = ix2 p q := ⟨j 0, j 1, eq_ix2 j⟩
  exact pay0_apply x0 x1 p q

section Region
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the weight's row block and the result's column block are the point, every
    other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- What point `t` writes back is its column block of the flattened intermediate. -/
theorem flushed0_eq (c : Dev nD) (t : Fin cfg0.N) :
    (dat0 V c).flushed 2 t = ((cfg0.win 2).blk t).view.read (Elt Ideal) (tflat (V c main_v3) (V c main_v2)) := by
  show (cfg0.win 2).cut (grid0.coords t) ((dat0 V c).after 2 t) = _
  rw [after0_2]
  unfold out0_2
  rw [View.canon_unit_zero hz2]
  simp only [View.ld_unit_zero (S := S4096x512) hz2, View.ld_unit_zero (S := S8x512) hz2]
  funext j
  show k0_pay1 (iblk0 V c 0 t) (iblk0 V c 1 t) j
    = tflat (V c main_v3) (V c main_v2) (((cfg0.win 2).blk t).view.emb j)
  refine (pay0_at (iblk0 V c 0 t) (iblk0 V c 1 t) j).trans ?_
  unfold tflat tAt
  obtain ⟨e0, e1, e2, e3, e4, e5⟩ := idx_facts0 t
  refine Finset.sum_congr rfl fun k _ => ?_
  have h1 : iblk0 V c 1 t (ix2 (n0 := 8) ⟨(j 0).val, (j 0).isLt⟩ k)
      = V c main_v2 (ix2 ((((cfg0.win 2).blk t).view.emb j) 0) k) := by
    show V c main_v2 (((cfg0.win 1).blk t).view.emb (ix2 (n0 := 8) ⟨(j 0).val, (j 0).isLt⟩ k)) = _
    refine congrArg (V c main_v2) (funext fun a => Fin.ext ?_)
    match a with
    | ⟨0, _⟩ => show win0_1.index t (0 : Fin 2) * 8 + 1 * (j 0).val = win0_2.index t (0 : Fin 2) * 8 + 1 * (j 0).val; omega
    | ⟨1, _⟩ => show win0_1.index t (1 : Fin 2) * 512 + 1 * k.val = k.val; omega
  have h0 : iblk0 V c 0 t (ix2 (n0 := 4096) ⟨(j 1).val, (j 1).isLt⟩ k)
      = V c main_v3 (ix2 ((((cfg0.win 2).blk t).view.emb j) 1) k) := by
    show V c main_v3 (((cfg0.win 0).blk t).view.emb (ix2 (n0 := 4096) ⟨(j 1).val, (j 1).isLt⟩ k)) = _
    refine congrArg (V c main_v3) (funext fun a => Fin.ext ?_)
    match a with
    | ⟨0, _⟩ => show win0_0.index t (0 : Fin 2) * 4096 + 1 * (j 1).val = win0_2.index t (1 : Fin 2) * 4096 + 1 * (j 1).val; omega
    | ⟨1, _⟩ => show win0_0.index t (1 : Fin 2) * 512 + 1 * k.val = k.val; omega
  rw [h1, h0]

end Region

section Cover
variable (V : (c : Dev nD) → (b : Ref sig .tc) → Buf (Elt Ideal) ((c : Thread nD τ).loc b))

/-- An index of the array is in point `t`'s block iff each coordinate is in the block's range on its axis. -/
theorem mem_blk0 (t : Fin cfg0.N) (i : S8x262144.Idx) :
    i ∈ ((cfg0.win 2).blk t).view.set ↔ ∀ a : Fin 2, win0_2.index t a * S8x4096.size a ≤ (i a).val
      ∧ (i a).val < win0_2.index t a * S8x4096.size a + S8x4096.size a := by
  show i ∈ ((View.whole main_v4).slice (win0_2.rect t)).set ↔ _
  rw [View.set_slice_whole, Rect.mem_set_unit]
  exact Iff.rfl

/-- The 64 column blocks tile the array: column `r` lies in the block of point `r / 4096`. -/
theorem cover0 (i : S8x262144.Idx) :
    ∃ t : Fin cfg0.N, (cfg0.win 2).flush t = true ∧ i ∈ ((cfg0.win 2).blk t).view.set := by
  have hi0 : (i 0).val < 8 := (i 0).isLt
  have hi1 : (i 1).val < 262144 := (i 1).isLt
  obtain ⟨t, ht⟩ : ∃ t : Fin cfg0.N, t.val = (i 1).val / 4096 :=
    ⟨⟨(i 1).val / 4096, by show _ < 64; omega⟩, rfl⟩
  refine ⟨t, flush0_2 t, ?_⟩
  rw [mem_blk0]
  obtain ⟨e0, e1, e2, e3, e4, e5⟩ := idx_facts0 t
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 4096 ≤ (i 1).val ∧ (i 1).val < win0_2.index t (1 : Fin 2) * 4096 + 4096
    omega

/-- The array after the region: the flattened intermediate of what the region was entered with. -/
theorem final0 (c : Dev nD) : (dat0 V c).arrAt 2 cfg0.N = tflat (V c main_v3) (V c main_v2) :=
  (dat0 V c).arrAt_eq_of_cover 2 (tflat (V c main_v3) (V c main_v2)) (fun t _ => flushed0_eq V c t) cover0

end Cover

end Cert.KernelIdeal.Region0

end
-- ==== Proof.Region1.lean ====
/-
  Region 1 (the second kernel) at the ideal values: what the result array holds when the region ends.

  The grid has 8 points, one per batch entry. Point `t` loads the [1024, 512] slab `x[t]`, the [512, 512] slab `tt[t]` of the
  intermediate and the [1, 512] bias, and stores the slab `t` of the result: entry (l, o) is
  (Σ_i x[t, l, i] · tt[t, o, i]) + bias[0, o]. The 8 slabs tile the [8, 1024, 512] array.
-/
import proofs.«118009_j82446192214447_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem ValueIdx

/-- Entry (b, l, o) of the result: row `l` of slab `b` of `x` against row `o` of slab `b` of the intermediate, plus the bias. -/
def oAt (x : S8x1024x512.Idx → EReal) (tt : S8x512x512.Idx → EReal) (bias : S1x512.Idx → EReal)
    (b : Fin 8) (l : Fin 1024) (o : Fin 512) : EReal :=
  (∑ i : Fin 512, x (ix3 b l i) * tt (ix3 b o i)) + bias (ix2 (0 : Fin 1) o)

/-- The result as one array. -/
def oarr (x : S8x1024x512.Idx → EReal) (tt : S8x512x512.Idx → EReal) (bias : S1x512.Idx → EReal) :
    S8x1024x512.Idx → EReal :=
  fun y => oAt x tt bias (y 0) (y 1) (y 2)

abbrev D1 := dot_S1024x512_S512x512_S1024x512_1_1_0_0_n_n

theorem lhs1_0 (i : S1024x512.Idx) (q : D1.contr.Idx) : (D1.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs1_1 (i : S1024x512.Idx) (q : D1.contr.Idx) : (D1.lhsIdx i q 1).val = (q ⟨0, by decide⟩).val :=
  dot_S1024x512_S512x512_S1024x512_1_1_0_0_n_n.lhsIdx_val_of_single rfl i q
theorem rhs1_0 (i : S1024x512.Idx) (q : D1.contr.Idx) : (D1.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs1_1 (i : S1024x512.Idx) (q : D1.contr.Idx) : (D1.rhsIdx i q 1).val = (q ⟨0, by decide⟩).val :=
  dot_S1024x512_S512x512_S1024x512_1_1_0_0_n_n.rhsIdx_val_of_single rfl i q

/-- The body's stored value at (0, l, o): row `l` of the `x` slab against row `o` of the intermediate's slab, plus the
    bias at `o` (the leading unit axis of every block is dropped before the product and added back after the sum). -/
theorem pay1_apply (x0 : Vec Ideal S1x1024x512 .f32) (x1 : Vec Ideal S1x512x512 .bf16) (x2 : Vec Ideal S1x512 .f32)
    (l : Fin 1024) (o : Fin 512) :
    k1_pay1 x0 x1 x2 (ix3 (0 : Fin 1) l o)
      = (∑ i : Fin 512, x0 (ix3 (0 : Fin 1) l i) * x1 (ix3 (0 : Fin 1) o i)) + x2 (ix2 (0 : Fin 1) o) := by
  unfold k1_pay1
  rw [shapeCast_self (s := S1x512)]
  refine (shapeCast_apply _ shapeCasts_S1024x512_S1x1024x512 (ix3 (0 : Fin 1) l o) (ix2 l o) ?_).trans ?_
  · rw [Shape.rowMajor_val_two, Shape.rowMajor_val_three]
    show l.val * 512 + o.val = ((0 : ℕ) * 1024 + l.val) * 512 + o.val
    omega
  refine (addf_apply _ _ _).trans ?_
  refine congrArg₂ (· + ·) ?_ ?_
  · show FloatOps.matmul D1 none
        (truncf (F := Ideal) .bf16 (shapeCast S1024x512 (x0 : FVec Ideal S1x1024x512 .f32) shapeCasts_S1x1024x512_S1024x512) bitsLt_bf16_f32)
        (shapeCast S512x512 (x1 : FVec Ideal S1x512x512 .bf16) shapeCasts_S1x512x512_S512x512)
        (constant (F := Ideal) S1024x512 .f32 0x00000000#32) (ix2 l o) = _
    rw [Ideal.matmul_constant_zero_apply, ← Equiv.sum_comp (contrEquiv1 D1 512 rfl rfl).symm]
    refine Finset.sum_congr rfl fun k _ => ?_
    have hk := contrEquiv1_symm_val D1 512 rfl rfl k
    have el : D1.lhsIdx (ix2 l o) ((contrEquiv1 D1 512 rfl rfl).symm k) = ix2 l k := funext fun a => Fin.ext (by
      match a with
      | ⟨0, _⟩ => exact lhs1_0 _ _
      | ⟨1, _⟩ => exact (lhs1_1 _ _).trans hk)
    have er : D1.rhsIdx (ix2 l o) ((contrEquiv1 D1 512 rfl rfl).symm k) = ix2 o k := funext fun a => Fin.ext (by
      match a with
      | ⟨0, _⟩ => exact rhs1_0 _ _
      | ⟨1, _⟩ => exact (rhs1_1 _ _).trans hk)
    rw [el, er]
    refine congrArg₂ (· * ·) ?_ ?_
    · show shapeCast S1024x512 x0 shapeCasts_S1x1024x512_S1024x512 (ix2 l k) = _
      refine shapeCast_apply x0 shapeCasts_S1x1024x512_S1024x512 (ix2 l k) (ix3 (0 : Fin 1) l k) ?_
      rw [Shape.rowMajor_val_two, Shape.rowMajor_val_three]
      show ((0 : ℕ) * 1024 + l.val) * 512 + k.val = l.val * 512 + k.val
      omega
    · refine shapeCast_apply x1 shapeCasts_S1x512x512_S512x512 (ix2 o k) (ix3 (0 : Fin 1) o k) ?_
      rw [Shape.rowMajor_val_two, Shape.rowMajor_val_three]
      show ((0 : ℕ) * 512 + o.val) * 512 + k.val = o.val * 512 + k.val
      omega
  · refine broadcastTo_apply x2 broadcasts_S1x512_S1024x512 (ix2 l o) (ix2 (0 : Fin 1) o) fun a => ?_
    match a with
    | ⟨0, _⟩ => show (0 : ℕ) = if (1 : ℕ) = 1 then 0 else l.val; rw [if_pos rfl]
    | ⟨1, _⟩ => show o.val = if (512 : ℕ) = 1 then 0 else o.val; rw [if_neg (by decide)]

/-- The same at any index of the block (whose leading coordinate is 0), the coordinates read off the index. -/
theorem pay1_at (x0 : Vec Ideal S1x1024x512 .f32) (x1 : Vec Ideal S1x512x512 .bf16) (x2 : Vec Ideal S1x512 .f32)
    (j : S1x1024x512.Idx) :
    k1_pay1 x0 x1 x2 j
      = (∑ i : Fin 512, x0 (ix3 (0 : Fin 1) (n1 := 1024) ⟨(j 1).val, (j 1).isLt⟩ i)
            * x1 (ix3 (0 : Fin 1) (n1 := 512) ⟨(j 2).val, (j 2).isLt⟩ i))
        + x2 (ix2 (0 : Fin 1) (n1 := 512) ⟨(j 2).val, (j 2).isLt⟩) := by
  obtain ⟨z, l, o, rfl⟩ : ∃ (z : Fin 1) (l : Fin 1024) (o : Fin 512), j = ix3 z l o := ⟨j 0, j 1, j 2, eq_ix3 j⟩
  obtain rfl : z = 0 := Subsingleton.elim _ _
  exact pay1_apply x0 x1 x2 l o

section Region
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the slab of `x`, of the intermediate and of the result is the point; the
    bias is always its one block. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- What point `t` writes back is its slab of the result. -/
theorem flushed1_eq (c : Dev nD) (t : Fin cfg1.N) :
    (dat1 V c).flushed 3 t
      = ((cfg1.win 3).blk t).view.read (Elt Ideal) (oarr (V c main_arg0) (V c main_v5) (V c main_v6)) := by
  show (cfg1.win 3).cut (grid1.coords t) ((dat1 V c).after 3 t) = _
  rw [after1_3]
  unfold out1_3
  rw [View.canon_unit_zero hz3]
  simp only [View.ld_unit_zero (S := S1x1024x512) hz3, View.ld_unit_zero (S := S1x512x512) hz3,
    View.ld_unit_zero (S := S1x512) hz2]
  funext j
  show k1_pay1 (iblk1 V c 0 t) (iblk1 V c 1 t) (iblk1 V c 2 t) j
    = oarr (V c main_arg0) (V c main_v5) (V c main_v6) (((cfg1.win 3).blk t).view.emb j)
  refine (pay1_at (iblk1 V c 0 t) (iblk1 V c 1 t) (iblk1 V c 2 t) j).trans ?_
  unfold oarr oAt
  obtain ⟨a0, a1, a2, b0, b1, b2, c0, c1, d0, d1, d2⟩ := idx_facts1 t
  have hj0 : (j 0).val < 1 := (j 0).isLt
  refine congrArg₂ (· + ·) (Finset.sum_congr rfl fun k _ => congrArg₂ (· * ·) ?_ ?_) ?_
  · show V c main_arg0 (((cfg1.win 0).blk t).view.emb (ix3 (0 : Fin 1) (n1 := 1024) ⟨(j 1).val, (j 1).isLt⟩ k)) = _
    refine congrArg (V c main_arg0) (funext fun a => Fin.ext ?_)
    match a with
    | ⟨0, _⟩ => show win1_0.index t (0 : Fin 3) * 1 + 1 * 0 = win1_3.index t (0 : Fin 3) * 1 + 1 * (j 0).val; omega
    | ⟨1, _⟩ => show win1_0.index t (1 : Fin 3) * 1024 + 1 * (j 1).val = win1_3.index t (1 : Fin 3) * 1024 + 1 * (j 1).val; omega
    | ⟨2, _⟩ => show win1_0.index t (2 : Fin 3) * 512 + 1 * k.val = k.val; omega
  · show V c main_v5 (((cfg1.win 1).blk t).view.emb (ix3 (0 : Fin 1) (n1 := 512) ⟨(j 2).val, (j 2).isLt⟩ k)) = _
    refine congrArg (V c main_v5) (funext fun a => Fin.ext ?_)
    match a with
    | ⟨0, _⟩ => show win1_1.index t (0 : Fin 3) * 1 + 1 * 0 = win1_3.index t (0 : Fin 3) * 1 + 1 * (j 0).val; omega
    | ⟨1, _⟩ => show win1_1.index t (1 : Fin 3) * 512 + 1 * (j 2).val = win1_3.index t (2 : Fin 3) * 512 + 1 * (j 2).val; omega
    | ⟨2, _⟩ => show win1_1.index t (2 : Fin 3) * 512 + 1 * k.val = k.val; omega
  · show V c main_v6 (((cfg1.win 2).blk t).view.emb (ix2 (0 : Fin 1) (n1 := 512) ⟨(j 2).val, (j 2).isLt⟩)) = _
    refine congrArg (V c main_v6) (funext fun a => Fin.ext ?_)
    match a with
    | ⟨0, _⟩ => show win1_2.index t (0 : Fin 2) * 1 + 1 * 0 = 0; omega
    | ⟨1, _⟩ => show win1_2.index t (1 : Fin 2) * 512 + 1 * (j 2).val = win1_3.index t (2 : Fin 3) * 512 + 1 * (j 2).val; omega

/-- An index of the array is in point `t`'s block iff each coordinate is in the block's range on its axis. -/
theorem mem_blk1 (t : Fin cfg1.N) (i : S8x1024x512.Idx) :
    i ∈ ((cfg1.win 3).blk t).view.set ↔ ∀ a : Fin 3, win1_3.index t a * S1x1024x512.size a ≤ (i a).val
      ∧ (i a).val < win1_3.index t a * S1x1024x512.size a + S1x1024x512.size a := by
  show i ∈ ((View.whole main_v7).slice (win1_3.rect t)).set ↔ _
  rw [View.set_slice_whole, Rect.mem_set_unit]
  exact Iff.rfl

/-- The 8 slabs tile the array: an index lies in the slab of its leading coordinate. -/
theorem cover1 (i : S8x1024x512.Idx) :
    ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 512 := (i 2).isLt
  obtain ⟨t, ht⟩ : ∃ t : Fin cfg1.N, t.val = (i 0).val := ⟨⟨(i 0).val, by show _ < 8; omega⟩, rfl⟩
  refine ⟨t, flush1_3 t, ?_⟩
  rw [mem_blk1]
  obtain ⟨a0, a1, a2, b0, b1, b2, c0, c1, d0, d1, d2⟩ := idx_facts1 t
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 512 ≤ (i 2).val ∧ (i 2).val < win1_3.index t (2 : Fin 3) * 512 + 512
    omega

/-- The array after the region: the result of what the region was entered with. -/
theorem final1 (c : Dev nD) : (dat1 V c).arrAt 3 cfg1.N = oarr (V c main_arg0) (V c main_v5) (V c main_v6) :=
  (dat1 V c).arrAt_eq_of_cover 3 (oarr (V c main_arg0) (V c main_v5) (V c main_v6)) (fun t _ => flushed1_eq V c t) cover1

end Region

end Cert.KernelIdeal.Region1

end
-- ==== Proof.Spec.lean ====
/-
  The function both programs compute, index by index, on the extended reals.

  With `xm[b, j]` the mean of `x2` over its middle axis (carried here as an opaque array: both programs form it by the
  same sum and the same quotient by 1024), the bilinear pooling is

    mid[b, o, i]  = Σ_j xm[b, j] · W[o, i, j]
    out[b, l, o]  = (Σ_i x1[b, l, i] · mid[b, o, i]) + bias[o].

  The kernel forms `mid` through the flattened weight `W[(o, i), j]` (row `512·o + i`) in column blocks of 4096 and
  reads it back as [8, 512, 512]; the reference contracts the rank-3 weight directly. Only the order of the factors
  and the layout differ, so no finiteness of the inputs is used anywhere.
-/
import Idealize.ShloMosaic.PureOps.Ideal
import Idealize.ShloMosaic.Lib.ValueIdx

noncomputable section

namespace Cert.Bilinear

open Idealize.ShloMosaic ValueIdx

/-- `mid[b, o, i] = Σ_j xm[b, j] · W[o, i, j]`: the weight contracted with the mean over its last axis. -/
def mid (xm : (⟨2, ![8, 512]⟩ : Shape).Idx → EReal) (W : (⟨3, ![512, 512, 512]⟩ : Shape).Idx → EReal)
    (b : Fin 8) (o i : Fin 512) : EReal :=
  ∑ j : Fin 512, xm (ix2 b j) * W (ix3 o i j)

/-- `out[b, l, o] = (Σ_i x1[b, l, i] · mid[b, o, i]) + bias[o]`, at explicit coordinates. -/
def outAt (x1 : (⟨3, ![8, 1024, 512]⟩ : Shape).Idx → EReal) (xm : (⟨2, ![8, 512]⟩ : Shape).Idx → EReal)
    (W : (⟨3, ![512, 512, 512]⟩ : Shape).Idx → EReal) (bias : (⟨1, ![512]⟩ : Shape).Idx → EReal)
    (b : Fin 8) (l : Fin 1024) (o : Fin 512) : EReal :=
  (∑ i : Fin 512, x1 (ix3 b l i) * mid xm W b o i) + bias (ix1 o)

/-- The whole result array. -/
def out (x1 : (⟨3, ![8, 1024, 512]⟩ : Shape).Idx → EReal) (xm : (⟨2, ![8, 512]⟩ : Shape).Idx → EReal)
    (W : (⟨3, ![512, 512, 512]⟩ : Shape).Idx → EReal) (bias : (⟨1, ![512]⟩ : Shape).Idx → EReal) :
    (⟨3, ![8, 1024, 512]⟩ : Shape).Idx → EReal :=
  fun y => outAt x1 xm W bias (y 0) (y 1) (y 2)

theorem out_ix3 (x1 : (⟨3, ![8, 1024, 512]⟩ : Shape).Idx → EReal) (xm : (⟨2, ![8, 512]⟩ : Shape).Idx → EReal)
    (W : (⟨3, ![512, 512, 512]⟩ : Shape).Idx → EReal) (bias : (⟨1, ![512]⟩ : Shape).Idx → EReal)
    (b : Fin 8) (l : Fin 1024) (o : Fin 512) : out x1 xm W bias (ix3 b l o) = outAt x1 xm W bias b l o := rfl

end Cert.Bilinear

end
-- ==== Proof.Compose.lean ====
/-
  The two regions composed through the reshapes between them are the bilinear pooling of `Spec.lean`.

  Row `512·o + i` of the flattened weight is `W[o, i, ·]`, and entry (b, o, i) of the intermediate read back as
  [8, 512, 512] is entry (b, 512·o + i) of the flattened one; so the second region's `tt[b, o, i]` is
  `Σ_j xm[b, j] · W[o, i, j]`, the specification's `mid`. The bias read as [1, 512] at (0, o) is `bias[o]`.
-/
import proofs.«118009_j82446192214447_1_alg».proof.Proof.Region0
import proofs.«118009_j82446192214447_1_alg».proof.Proof.Region1
import proofs.«118009_j82446192214447_1_alg».proof.Proof.Spec

noncomputable section

namespace Cert.KernelIdeal.Compose

open Cert.KernelIdeal Cert.KernelIdeal.Gen
open Idealize.ShloMosaic ValueIdx

/-- The intermediate, flattened and read back, is `mid`. -/
theorem mid_eq (xm : S8x512.Idx → EReal) (W : S512x512x512.Idx → EReal) (b : Fin 8) (o i : Fin 512) :
    shapeCast S8x512x512 (Region0.tflat (shapeCast S262144x512 W shapeCasts_S512x512x512_S262144x512) xm)
        shapeCasts_S8x262144_S8x512x512 (ix3 b o i)
      = Cert.Bilinear.mid xm W b o i := by
  have hr : o.val * 512 + i.val < 262144 := by have := o.isLt; have := i.isLt; omega
  refine (shapeCast_apply _ shapeCasts_S8x262144_S8x512x512 (ix3 b o i)
    (ix2 b (⟨o.val * 512 + i.val, hr⟩ : Fin 262144)) ?_).trans ?_
  · rw [Shape.rowMajor_val_two, Shape.rowMajor_val_three]
    show b.val * 262144 + (o.val * 512 + i.val) = (b.val * 512 + o.val) * 512 + i.val
    omega
  unfold Region0.tflat Region0.tAt Cert.Bilinear.mid
  refine Finset.sum_congr rfl fun j _ => congrArg₂ (· * ·) rfl ?_
  refine shapeCast_apply W shapeCasts_S512x512x512_S262144x512
    (ix2 (⟨o.val * 512 + i.val, hr⟩ : Fin 262144) j) (ix3 o i j) ?_
  rw [Shape.rowMajor_val_two, Shape.rowMajor_val_three]
  show (o.val * 512 + i.val) * 512 + j.val = (o.val * 512 + i.val) * 512 + j.val
  rfl

/-- The second region's result over the first region's, through the reshapes, is the specification. -/
theorem out_eq (x : S8x1024x512.Idx → EReal) (xm : S8x512.Idx → EReal) (W : S512x512x512.Idx → EReal)
    (bias : S512.Idx → EReal) :
    Region1.oarr x
        (shapeCast S8x512x512 (Region0.tflat (shapeCast S262144x512 W shapeCasts_S512x512x512_S262144x512) xm)
          shapeCasts_S8x262144_S8x512x512)
        (shapeCast S1x512 bias shapeCasts_S512_S1x512)
      = Cert.Bilinear.out x xm W bias := by
  funext y
  obtain ⟨b, l, o, rfl⟩ : ∃ (b : Fin 8) (l : Fin 1024) (o : Fin 512), y = ix3 b l o := ⟨y 0, y 1, y 2, eq_ix3 y⟩
  rw [Cert.Bilinear.out_ix3]
  show Region1.oAt x _ _ b l o = _
  unfold Region1.oAt Cert.Bilinear.outAt
  refine congrArg₂ (· + ·) (Finset.sum_congr rfl fun i _ => congrArg₂ (· * ·) rfl (mid_eq xm W b o i)) ?_
  refine shapeCast_apply bias shapeCasts_S512_S1x512 (ix2 (0 : Fin 1) o) (ix1 o) ?_
  rw [Shape.rowMajor_val_one, Shape.rowMajor_val_two]
  show o.val = (0 : ℕ) * 512 + o.val
  omega

end Cert.KernelIdeal.Compose

end
-- ==== Proof.KernelValue.lean ====
/-
  The kernel program's result array at the ideal values, as a function of its argument arrays.

  Between the launch and the return the buffers change in four steps: the host prologue forms the mean
  `xm = (Σ_l x2[·, l, ·] + 0) / 1024` and flattens the weight; region 0 leaves the flattened intermediate; two reshapes
  read it back as [8, 512, 512] and the bias as [1, 512]; region 1 leaves the result. Each step's contents are read
  off the run's boundary contents, and `Compose.out_eq` joins them into the specification.
-/
import proofs.«118009_j82446192214447_1_alg».proof.Proof.Compose
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo ValueIdx

variable (m : (ℓ : Loc nD τ sig) → Buf (Elt Ideal) ℓ) (ρ : Dev nD → PrngReg)

/-- The mean of the second argument over its middle axis, as the host prologue forms it. -/
def xmean (x : S8x1024x512.Idx → EReal) : S8x512.Idx → EReal :=
  Host.divf (F := Ideal)
    (Host.reduceAdd (F := Ideal) x (constant (F := Ideal) S_ .f32 0x00000000#32) reducesTo_S8x1024x512_S8x512_d1 h_S_)
    (broadcastInDim S8x512 ![] bcast_S_S8x512 (constant (F := Ideal) S_ .f32 0x44800000#32))

/-- Region 0 is entered with the mean in its second window's array … -/
theorem entry0_mean (c : Dev nD) : V1 m ρ c main_v2 = xmean (m ((c : Thread nD τ).loc main_arg1)) := by
  show StableHlo.after hostOps0 (W0 m ρ c) (Proc.devRef .tc main_v2) = _
  after_results
  rfl

/-- … and the flattened weight in its first window's array. -/
theorem entry0_weight (c : Dev nD) :
    V1 m ρ c main_v3 = shapeCast S262144x512 (m ((c : Thread nD τ).loc main_arg2)) shapeCasts_S512x512x512_S262144x512 := by
  show StableHlo.after hostOps0 (W0 m ρ c) (Proc.devRef .tc main_v3) = _
  after_results
  rfl

/-- Region 0 leaves the flattened intermediate of the two. -/
theorem exit0 (c : Dev nD) :
    W2 m ρ c (Proc.devRef .tc main_v4) = Region0.tflat (V1 m ρ c main_v3) (V1 m ρ c main_v2) :=
  (W2_arr m ρ c 2).trans (Region0.final0 (V1 m ρ) c)

/-- Region 1 is entered with the intermediate read back as [8, 512, 512], … -/
theorem entry1_mid (c : Dev nD) :
    V3 m ρ c main_v5 = shapeCast S8x512x512 (W2 m ρ c (Proc.devRef .tc main_v4)) shapeCasts_S8x262144_S8x512x512 := by
  show StableHlo.after hostOps1 (W2 m ρ c) (Proc.devRef .tc main_v5) = _
  after_results
  rfl

/-- … the bias read as [1, 512] (no region and no host operation has written the bias's own array), … -/
theorem entry1_bias (c : Dev nD) :
    V3 m ρ c main_v6 = shapeCast S1x512 (m ((c : Thread nD τ).loc main_arg3)) shapeCasts_S512_S1x512 := by
  show StableHlo.after hostOps1 (W2 m ρ c) (Proc.devRef .tc main_v6) = _
  after_results
  rw [W2_of_ne m ρ c main_arg3 (by decide)]
  show (fun i => shapeCast S1x512 (StableHlo.after hostOps0 (W0 m ρ c) (Proc.devRef .tc main_arg3)) shapeCasts_S512_S1x512 i) = _
  after_results

/-- … and the first argument as launched. -/
theorem entry1_x (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- THE RESULT: at the last boundary the result array holds the bilinear pooling of the launch arguments. -/
theorem result (c : Dev nD) :
    W4 m ρ c (Proc.devRef .tc main_v7)
      = Cert.Bilinear.out (m ((c : Thread nD τ).loc main_arg0)) (xmean (m ((c : Thread nD τ).loc main_arg1)))
          (m ((c : Thread nD τ).loc main_arg2)) (m ((c : Thread nD τ).loc main_arg3)) := by
  refine ((W4_arr m ρ c 3).trans (Region1.final1 (V3 m ρ) c)).trans ?_
  rw [entry1_x, entry1_mid, entry1_bias, exit0, entry0_weight, entry0_mean]
  exact Compose.out_eq _ _ _ _

end Cert.KernelIdeal.KValue

end
-- ==== Proof.RefValue.lean ====
/-
  The reference at the ideal values is the bilinear pooling of `Spec.lean`: its first contraction is
  `mid[b, o, i] = Σ_j xm[b, j] · W[o, i, j]` (left operand the mean, right operand the rank-3 weight), its second
  `Σ_i x1[b, l, i] · mid[b, o, i]` with `b` a batch axis, and the bias is broadcast along the last axis.
-/
import proofs.«118009_j82446192214447_1_alg».proof.Defs
import proofs.«118009_j82446192214447_1_alg».proof.Proof.Gen.ReferenceIdeal.Run
import proofs.«118009_j82446192214447_1_alg».proof.Proof.Gen.ReferenceIdeal.Read
import proofs.«118009_j82446192214447_1_alg».proof.Proof.Spec

noncomputable section

namespace Cert.ReferenceIdeal.RefValue

open Cert.ReferenceIdeal Cert.ReferenceIdeal.Read
open Idealize.ShloMosaic Idealize.ShloMosaic.TcCoe Idealize.SL.Sem ValueIdx

/-- The reference's mean of its second argument over the middle axis (sum, then quotient by 1024). -/
abbrev xmean (x1 : S8x1024x512.Idx → EReal) : S8x512.Idx → EReal := Read.val_main_v2 (F := Ideal) x1

/-- Index by index the reference's result is `Bilinear.out` of its arguments and of its own mean. -/
theorem result_eq (x0 x1 : S8x1024x512.Idx → EReal) (x2 : S512x512x512.Idx → EReal) (x3 : S512.Idx → EReal) :
    Read.val_main_v7 (F := Ideal) x0 x1 x2 x3 = Cert.Bilinear.out x0 (xmean x1) x2 x3 := by
  funext y
  obtain ⟨b, l, o, rfl⟩ : ∃ (b : Fin 8) (l : Fin 1024) (o : Fin 512), y = ix3 b l o := ⟨y 0, y 1, y 2, eq_ix3 y⟩
  rw [Cert.Bilinear.out_ix3, val_main_v7_apply, val_main_v4_apply, val_main_v6_apply, val_main_v5_apply]
  unfold Cert.Bilinear.outAt
  show _ + _ = _ + _
  congr 1
  · refine Finset.sum_congr rfl fun k _ => ?_
    rw [val_main_v3_apply]
    have e0 : lidx_main_v4 (ix3 b l o) k = ix3 b l k :=
      funext fun a => Fin.ext (by match a with | ⟨0, _⟩ => rfl | ⟨1, _⟩ => rfl | ⟨2, _⟩ => rfl)
    rw [e0]
    unfold Cert.Bilinear.mid
    refine congrArg (_ * ·) (Finset.sum_congr rfl fun j _ => ?_)
    have e1 : lidx_main_v3 (ridx_main_v4 (ix3 b l o) k) j = ix2 b j :=
      funext fun a => Fin.ext (by match a with | ⟨0, _⟩ => rfl | ⟨1, _⟩ => rfl)
    have e2 : ridx_main_v3 (ridx_main_v4 (ix3 b l o) k) j = ix3 o k j :=
      funext fun a => Fin.ext (by match a with | ⟨0, _⟩ => rfl | ⟨1, _⟩ => rfl | ⟨2, _⟩ => rfl)
    rw [e1, e2]
  · exact congrArg x3 (funext fun a => Fin.ext (by match a with | ⟨0, _⟩ => rfl))

end Cert.ReferenceIdeal.RefValue

end
-- ==== Proof.lean ====
/-
  The kernel computes a bilinear pooling in two pallas_calls: with `xm[b, j]` the mean of `x2[b, ·, j]`,

    mid[b, o, i] = Σ_j xm[b, j] · W[o, i, j]          (first call, over the weight flattened to [512·512, 512])
    out[b, l, o] = (Σ_i x1[b, l, i] · mid[b, o, i]) + bias[o]   (second call, one batch entry per grid point)

  and the reference computes the same two contractions as host `dot_general`s. On the extended reals every change of
  float format is the identity, a product into a zero accumulator is the plain sum, and the two programs multiply their
  factors in the same order, so the two results agree index by index with no use of the inputs' finiteness.

  The frames of both kernel programs are the generated frame certificates; the reference's frame is its run with the
  result dropped. The idealization rewrote nothing, so `preserves` is trivial. For `algebraic` the kernel program is
  run once more with its result array named (`KernelRun`), that array is read through both regions and the reshapes
  between them (`Region0`, `Region1`, `Compose`, `KernelValue`), and the reference's result is read operation by
  operation (`RefValue`); both are `Bilinear.out` of the arguments and of the mean, which the two programs form by the
  same sum and the same quotient.
-/
import proofs.«118009_j82446192214447_1_alg».proof.Defs
import proofs.«118009_j82446192214447_1_alg».proof.Proof.Gen.Kernel
import proofs.«118009_j82446192214447_1_alg».proof.Proof.Gen.Kernel.Frame
import proofs.«118009_j82446192214447_1_alg».proof.Proof.Gen.KernelIdeal
import proofs.«118009_j82446192214447_1_alg».proof.Proof.Gen.KernelIdeal.Frame
import proofs.«118009_j82446192214447_1_alg».proof.Proof.Gen.ReferenceIdeal
import proofs.«118009_j82446192214447_1_alg».proof.Proof.Gen.ReferenceIdeal.Run
import proofs.«118009_j82446192214447_1_alg».proof.Proof.Gen.Pre_finite_inputs
import proofs.«118009_j82446192214447_1_alg».proof.Proof.KernelRun
import proofs.«118009_j82446192214447_1_alg».proof.Proof.KernelValue
import proofs.«118009_j82446192214447_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs form the mean by the same operations: the sum over the middle axis onto a zero, then the quotient by
    the broadcast 1024. -/
theorem mean_eq (x : Cert.ReferenceIdeal.S8x1024x512.Idx → EReal) :
    Cert.ReferenceIdeal.RefValue.xmean x = Cert.KernelIdeal.KValue.xmean x := rfl

/-- From memories that agree on the arguments both programs end with `Bilinear.out` of the arguments in their result
    array. -/
theorem algebraic : Cert.algebraic_KernelIdeal_ReferenceIdeal := by
  intro m ρ m' ρ' _ hagree
  refine ⟨fun c => Cert.Bilinear.out (m ((c.tc : Thread Cert.KernelIdeal.nD Cert.KernelIdeal.τ).loc Cert.KernelIdeal.main_arg0))
      (Cert.KernelIdeal.KValue.xmean (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.result m ρ c), (h c).2⟩)
      (Cert.KernelIdeal.Run.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.result_eq, mean_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
